-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x4x256 : Shape := ⟨3, ![100000, 4, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x4x256 : S_.BroadcastsInDim S100000x4x256 (![] : Fin 0 → Fin S100000x4x256.rank)
  reducesTo_S100000x4x256_S_d0_1_2 : S100000x4x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  main_v73

def fn_part3 {F : FTy → Type} [FloatOps F] (main_arg11 : FVec F S256x256 .f32) (main_arg12 : FVec F S256x256 .f32) (main_arg13 : FVec F S256x256 .f32) (main_arg14 : FVec F S256x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x256 .f32) (main_arg1 : FVec F S100000x4x256 .f32) (main_arg2 : FVec F S100000x4x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x4x256 .f32 := Host.absf main_arg1
  let main_cst_0 : FVec F S_ .f32 := constant S_ .f32 0x7F800000#32
  let main_v5 : FVec F S100000x4x256 .f32 := broadcastInDim S100000x4x256 ![] bcast_S_S100000x4x256 main_cst_0
  let main_v6 : IVec S100000x4x256 1 := cmpf .olt main_v4 main_v5
  let main_c_1 : IVec S_ 1 := constantI S_ 1 1#1
  let main_v7 : IVec S_ 1 := (fun x v => Host.reduce IntOp.andi x v reducesTo_S100000x4x256_S_d0_1_2 h_S_) main_v6 main_c_1
  let main_v8 : IVec S_ 1 := andi main_v3 main_v7
  let main_v9 : FVec F S100000x4x256 .f32 := Host.absf main_arg2
  let main_cst_2 : FVec F S_ .f32 := constant S_ .f32 0x7F800000#32
  let main_v10 : FVec F S100000x4x256 .f32 := broadcastInDim S100000x4x256 ![] bcast_S_S100000x4x256 main_cst_2
  let main_v11 : IVec S100000x4x256 1 := cmpf .olt main_v9 main_v10
  let main_c_3 : IVec S_ 1 := constantI S_ 1 1#1
  let main_v12 : IVec S_ 1 := (fun x v => Host.reduce IntOp.andi x v reducesTo_S100000x4x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x256 : Shape := ⟨2, ![100000, 256]⟩
abbrev S100000x4x256 : Shape := ⟨3, ![100000, 4, 256]⟩
abbrev S256x256 : Shape := ⟨2, ![256, 256]⟩
abbrev S256 : Shape := ⟨1, ![256]⟩
abbrev S400x256 : Shape := ⟨2, ![400, 256]⟩
abbrev S400x4x256 : Shape := ⟨3, ![400, 4, 256]⟩
abbrev S1x256 : Shape := ⟨2, ![1, 256]⟩
abbrev S1600x256 : Shape := ⟨2, ![1600, 256]⟩
abbrev S400x1x256 : Shape := ⟨3, ![400, 1, 256]⟩

abbrev nBuf : Space → Nat
  | .hbm => 25
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S100000x4x256, .f32⟩
  | .hbm, ⟨2, _⟩ => ⟨S100000x4x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S100000x256, .f32⟩
  | .hbm, ⟨24, _⟩ => ⟨S100000x256, .f32⟩
  | .local _ .vmem, ⟨0, _⟩ => ⟨S400x256, .f32⟩
  | .local _ .vmem, ⟨1, _⟩ => ⟨S400x256, .f32⟩
  | .local _ .vmem, ⟨2, _⟩ => ⟨S400x4x256, .f32⟩
  | .local _ .vmem, ⟨3, _⟩ => ⟨S400x4x256, .f32⟩
  | .local _ .vmem, ⟨4, _⟩ => ⟨S400x4x256, .f32⟩
  | .local _ .vmem, ⟨5, _⟩ => ⟨S400x4x256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S400x256, .f32⟩
  | .local _ .vmem, ⟨19, _⟩ => ⟨S400x256, .f32⟩
  | .local _ .vmem, ⟨20, _⟩ => ⟨S400x256, .f32⟩
  | .local _ .vmem, ⟨21, _⟩ => ⟨S400x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S400x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S400x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S256x256_S256x256_1_0 : S256x256.Transposes [1, 0] S256x256
  inb_S400x256_S400x256_0_0 : ∀ a, (![0, 0] : Fin 2 → Nat) a + S400x256.size a ≤ S400x256.size a
  h_S400x256 : 0 < S400x256.numel
  inb_S400x4x256_S400x4x256_0_0_0 : ∀ a, (![0, 0, 0] : Fin 3 → Nat) a + S400x4x256.size a ≤ S400x4x256.size a
  h_S400x4x256 : 0 < S400x4x256.numel
  bitsLt_bf16_f32 : FTy.bits .bf16 < FTy.bits .f32
  reduces_S400x4x256_S400x256 : S400x4x256.Reduces [1] S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  shapeCasts_S400x4x256_S1600x256 : S400x4x256.ShapeCasts S1600x256
  shapeCasts_S1600x256_S400x4x256 : S1600x256.ShapeCasts S400x4x256
  shapeCasts_S400x256_S400x1x256 : S400x256.ShapeCasts S400x1x256
  broadcasts_S400x1x256_S400x4x256 : S400x1x256.Broadcasts S400x4x256
  dot_S400x256_S256x256_S400x256_1_0_0_1_n_n_wf : DotDims.WF S400x256 S256x256 S400x256 [1] [0] [0] [1] [] []
  dot_S1600x256_S256x256_S1600x256_1_0_0_1_n_n_wf : DotDims.WF S1600x256 S256x256 S1600x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S100000x256.size a
  hwx0_0 : ∀ i : grid0.Coords, EltTy.bits .f32 = 32 ∨ (Rect.block (s := S100000x256) S400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4x256.size a ≤ S100000x4x256.size a
  hwx0_1 : ∀ i : grid0.Coords, EltTy.bits .f32 = 32 ∨ (Rect.block (s := S100000x4x256) S400x4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x4x256.size a ≤ S100000x4x256.size a
  hwx0_2 : ∀ i : grid0.Coords, EltTy.bits .f32 = 32 ∨ (Rect.block (s := S100000x4x256) S400x4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S400x256.size a ≤ S100000x256.size a
  hwx0_15 : ∀ i : grid0.Coords, EltTy.bits .f32 = 32 ∨ (Rect.block (s := S100000x256) S400x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S400x256.size a ≤ S100000x256.size a
  hwx0_16 : ∀ i : grid0.Coords, EltTy.bits .f32 = 32 ∨ (Rect.block (s := S100000x256) S400x256.size (cc0_transform_16 i) (hinb0_16 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S1600x256_S256x256_S1600x256_1_0_0_1_n_n : DotDims S1600x256 S256x256 S1600x256 where
  lhsContracting := [1]
  rhsContracting := [0]
  lhsNonContracting := [0]
  rhsNonContracting := [1]
  lhsBatch := []
  rhsBatch := []
  wf := dot_S1600x256_S256x256_S1600x256_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8_0) S400x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v8_1) S400x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x4x256 : Shape := ⟨3, ![100000, 4, 256]⟩
abbrev S256x256 : Shape := ⟨2, ![256, 256]⟩
abbrev S256 : Shape := ⟨1, ![256]⟩
abbrev S_ : Shape := ⟨0, ![]⟩
abbrev S1x256 : Shape := ⟨2, ![1, 256]⟩
abbrev S100000x1x256 : Shape := ⟨3, ![100000, 1, 256]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x4x256, .f32⟩
  | .hbm, ⟨2, _⟩ => ⟨S100000x4x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S100000x256, .f32⟩
  | .hbm, ⟨17, _⟩ => ⟨S256x256, .f32⟩
  | .hbm, ⟨18, _⟩ => ⟨S100000x256, .f32⟩
  | .hbm, ⟨19, _⟩ => ⟨S1x256, .f32⟩
  | .hbm, ⟨20, _⟩ => ⟨S100000x256, .f32⟩
  | .hbm, ⟨21, _⟩ => ⟨S100000x256, .f32⟩
  | .hbm, ⟨22, _⟩ => ⟨S256x256, .f32⟩
  | .hbm, ⟨23, _⟩ => ⟨S100000x256, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S_, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S100000x256, .f32⟩
  | .hbm, ⟨32, _⟩ => ⟨S100000x256, .f32⟩
  | .hbm, ⟨33, _⟩ => ⟨S256x256, .f32⟩
  | .hbm, ⟨34, _⟩ => ⟨S100000x256, .f32⟩
  | .hbm, ⟨35, _⟩ => ⟨S1x256, .f32⟩
  | .hbm, ⟨36, _⟩ => ⟨S100000x256, .f32⟩
  | .hbm, ⟨37, _⟩ => ⟨S100000x256, .f32⟩
  | .hbm, ⟨38, _⟩ => ⟨S256x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S256x256, .f32⟩
  | .hbm, ⟨50, _⟩ => ⟨S100000x256, .f32⟩
  | .hbm, ⟨51, _⟩ => ⟨S1x256, .f32⟩
  | .hbm, ⟨52, _⟩ => ⟨S100000x256, .f32⟩
  | .hbm, ⟨53, _⟩ => ⟨S100000x256, .f32⟩
  | .hbm, ⟨54, _⟩ => ⟨S256x256, .f32⟩
  | .hbm, ⟨55, _⟩ => ⟨S100000x256, .f32⟩
  | .hbm, ⟨56, _⟩ => ⟨S100000x256, .f32⟩
  | .hbm, ⟨57, _⟩ => ⟨S100000x256, .f32⟩
  | .hbm, ⟨58, _⟩ => ⟨S256x256, .f32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x256, .f32⟩
  | .hbm, ⟨63, _⟩ => ⟨S100000x1x256, .f32⟩
  | .hbm, ⟨64, _⟩ => ⟨S100000x4x256, .f32⟩
  | .hbm, ⟨65, _⟩ => ⟨S100000x4x256, .f32⟩
  | .hbm, ⟨66, _⟩ => ⟨S100000x4x256, .f32⟩
  | .hbm, ⟨67, _⟩ => ⟨S100000x4x256, .f32⟩
  | .hbm, ⟨68, _⟩ => ⟨S100000x4x256, .f32⟩
  | .hbm, ⟨69, _⟩ => ⟨S_, .f32⟩
  | .hbm, ⟨70, _⟩ => ⟨S100000x4x256, .f32⟩
  | .hbm, ⟨71, _⟩ => ⟨S100000x4x256, .f32⟩
  | .hbm, ⟨72, _⟩ => ⟨S_, .f32⟩
  | .hbm, ⟨73, _⟩ => ⟨S100000x4x256, .f32⟩
  | .hbm, ⟨74, _⟩ => ⟨S100000x4x256, .f32⟩
  | .hbm, ⟨75, _⟩ => ⟨S100000x256, .f32⟩
  | .hbm, ⟨76, _⟩ => ⟨S100000x4x256, .f32⟩
  | .hbm, ⟨77, _⟩ => ⟨S_, .f32⟩
  | .hbm, ⟨78, _⟩ => ⟨S100000x256, .f32⟩
  | .hbm, ⟨79, _⟩ => ⟨S100000x256, .f32⟩
  | .hbm, ⟨80, _⟩ => ⟨S100000x256, .f32⟩
  | .hbm, ⟨81, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  reducesTo_S100000x4x256_S100000x256_d1 : S100000x4x256.ReducesTo [1] S100000x256
  h_S_ : 0 < S_.numel
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x256_S100000x1x256_0_2 : S100000x256.BroadcastsInDim S100000x1x256 (![0, 2] : Fin 2 → Fin S100000x1x256.rank)
  bcast_S100000x1x256_S100000x4x256_0_1_2 : S100000x1x256.BroadcastsInDim S100000x4x256 (![0, 1, 2] : Fin 3 → Fin S100000x4x256.rank)
  bcast_S_S100000x4x256 : S_.BroadcastsInDim S100000x4x256 (![] : Fin 0 → Fin S100000x4x256.rank)
  dot_S100000x256_S256x256_S100000x256_1_0_0_1_n_n_wf : DotDims.WF S100000x256 S256x256 S100000x256 [1] [0] [0] [1] [] []
  dot_S100000x4x256_S256x256_S100000x4x256_2_1_01_0_n_n_wf : DotDims.WF S100000x4x256 S256x256 S100000x4x256 [2] [1] [0, 1] [0] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x4x256_S256x256_S100000x4x256_2_1_01_0_n_n : DotDims S100000x4x256 S256x256 S100000x4x256 where
  lhsContracting := [2]
  rhsContracting := [1]
  lhsNonContracting := [0, 1]
  rhsNonContracting := [0]
  lhsBatch := []
  rhsBatch := []
  wf := dot_S100000x4x256_S256x256_S100000x4x256_2_1_01_0_n_n_wf

class Facts : Prop extends Facts₀ where

variable [Facts]
-- ==== Proof.KernelOps.lean ====
/-
  The kernel body's operations that are not entry-by-entry, each read at an index of the 400-node block.

  * a block product `[400,256] × [256,256]` (and the flattened `[1600,256] × [256,256]`) into a zero accumulator is,
    at `(p, q)`, the sum over `k` of the left operand's row `p` against the right operand's column `q`;
  * the sum of a `[400,4,256]` block over its child axis is, at `(p, q)`, the sum over the four children;
  * flattening `[400,4,256]` to `[1600,256]` puts child `k` of node `p` in row `4p + k`, and the cast back undoes it;
  * a length-256 vector cast to one row and broadcast over the 400 rows reads the vector's entry at the column;
  * a `[400,256]` block given a unit child axis and broadcast over the four children reads the block at `(p, q)`.
-/
import proofs.«145503_j63917703299457_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Gen Idealize.ShloMosaic Idealize.ShloMosaic.ValueIdx

/-! ## The block products -/

theorem lhs400_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs400_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
theorem rhs400_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem rhs400_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- The block product at `(p, q)`: row `p` of the left operand against column `q` of the right one. -/
theorem matmul400_apply {φ₁ φ₂ : FTy} (a : FVec Ideal S400x256 φ₁) (b : FVec Ideal S256x256 φ₂) (p : Fin 400) (q : Fin 256) :
    matmul dot_S400x256_S256x256_S400x256_1_0_0_1_n_n none a b (constant (F := Ideal) S400x256 .f32 0x00000000#32) (ix2 p q)
      = ∑ k : Fin 256, a (ix2 p k) * b (ix2 k q) := by
  refine (Ideal.matmul_constant_zero_apply dot_S400x256_S256x256_S400x256_1_0_0_1_n_n none a b (ix2 p q)).trans ?_
  rw [← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 p q) ((ValueIdx.contrEquiv1 dot_S400x256_S256x256_S400x256_1_0_0_1_n_n 256 rfl rfl).symm k) = ix2 p k := funext fun a => Fin.ext (by
    match a with
    | ⟨0, _⟩ => exact lhs400_0 _ _
    | ⟨1, _⟩ => exact (lhs400_1 _ _).trans hk)
  have er : dot_S400x256_S256x256_S400x256_1_0_0_1_n_n.rhsIdx (ix2 p q) ((ValueIdx.contrEquiv1 dot_S400x256_S256x256_S400x256_1_0_0_1_n_n 256 rfl rfl).symm k) = ix2 k q := funext fun a => Fin.ext (by
    match a with
    | ⟨0, _⟩ => exact (rhs400_0 _ _).trans hk
    | ⟨1, _⟩ => exact rhs400_1 _ _)
  rw [el, er]

theorem lhs1600_0 (i : S1600x256.Idx) (q : dot_S1600x256_S256x256_S1600x256_1_0_0_1_n_n.contr.Idx) :
    (dot_S1600x256_S256x256_S1600x256_1_0_0_1_n_n.lhsIdx i q 0).val = (i 0).val := by
  unfold DotDims.lhsIdx
  rw [dif_neg (show ¬(0 : Fin S1600x256.rank) ∈ dot_S1600x256_S256x256_S1600x256_1_0_0_1_n_n.lhsBatch by decide), dif_pos (show (0 : Fin S1600x256.rank) ∈ dot_S1600x256_S256x256_S1600x256_1_0_0_1_n_n.lhsNonContracting by decide)]
  rfl
theorem lhs1600_1 (i : S1600x256.Idx) (q : dot_S1600x256_S256x256_S1600x256_1_0_0_1_n_n.contr.Idx) :
    (dot_S1600x256_S256x256_S1600x256_1_0_0_1_n_n.lhsIdx i q 1).val = (q ⟨0, by decide⟩).val :=
  dot_S1600x256_S256x256_S1600x256_1_0_0_1_n_n.lhsIdx_val_of_single rfl i q
theorem rhs1600_0 (i : S1600x256.Idx) (q : dot_S1600x256_S256x256_S1600x256_1_0_0_1_n_n.contr.Idx) :
    (dot_S1600x256_S256x256_S1600x256_1_0_0_1_n_n.rhsIdx i q 0).val = (q ⟨0, by decide⟩).val :=
  dot_S1600x256_S256x256_S1600x256_1_0_0_1_n_n.rhsIdx_val_of_single rfl i q
theorem rhs1600_1 (i : S1600x256.Idx) (q : dot_S1600x256_S256x256_S1600x256_1_0_0_1_n_n.contr.Idx) :
    (dot_S1600x256_S256x256_S1600x256_1_0_0_1_n_n.rhsIdx i q 1).val = (i 1).val := by
  unfold DotDims.rhsIdx
  rw [dif_neg (show ¬(1 : Fin S256x256.rank) ∈ dot_S1600x256_S256x256_S1600x256_1_0_0_1_n_n.rhsBatch by decide), dif_pos (show (1 : Fin S256x256.rank) ∈ dot_S1600x256_S256x256_S1600x256_1_0_0_1_n_n.rhsNonContracting by decide)]
  rfl

/-- The flattened product at `(r, q)`: row `r` of the left operand against column `q` of the right one. -/
theorem matmul1600_apply {φ₁ φ₂ : FTy} (a : FVec Ideal S1600x256 φ₁) (b : FVec Ideal S256x256 φ₂) (r : Fin 1600) (q : Fin 256) :
    matmul dot_S1600x256_S256x256_S1600x256_1_0_0_1_n_n none a b (constant (F := Ideal) S1600x256 .f32 0x00000000#32) (ix2 r q)
      = ∑ k : Fin 256, a (ix2 r k) * b (ix2 k q) := by
  refine (Ideal.matmul_constant_zero_apply dot_S1600x256_S256x256_S1600x256_1_0_0_1_n_n none a b (ix2 r q)).trans ?_
  rw [← Equiv.sum_comp (ValueIdx.contrEquiv1 dot_S1600x256_S256x256_S1600x256_1_0_0_1_n_n 256 rfl rfl).symm]
  refine Finset.sum_congr rfl fun k _ => ?_
  have hk := ValueIdx.contrEquiv1_symm_val dot_S1600x256_S256x256_S1600x256_1_0_0_1_n_n 256 rfl rfl k
  have el : dot_S1600x256_S256x256_S1600x256_1_0_0_1_n_n.lhsIdx (ix2 r q) ((ValueIdx.contrEquiv1 dot_S1600x256_S256x256_S1600x256_1_0_0_1_n_n 256 rfl rfl).symm k) = ix2 r k := funext fun a => Fin.ext (by
    match a with
    | ⟨0, _⟩ => exact lhs1600_0 _ _
    | ⟨1, _⟩ => exact (lhs1600_1 _ _).trans hk)
  have er : dot_S1600x256_S256x256_S1600x256_1_0_0_1_n_n.rhsIdx (ix2 r q) ((ValueIdx.contrEquiv1 dot_S1600x256_S256x256_S1600x256_1_0_0_1_n_n 256 rfl rfl).symm k) = ix2 k q := funext fun a => Fin.ext (by
    match a with
    | ⟨0, _⟩ => exact (rhs1600_0 _ _).trans hk
    | ⟨1, _⟩ => exact rhs1600_1 _ _)
  rw [el, er]

/-! ## The sum over the child axis -/

/-- The sum of a `[400,4,256]` block over its middle axis, at `(p, q)`: the four children's entries at `(p, ·, q)`. -/
theorem sumKids_apply (v : FVec Ideal S400x4x256 .f32) (h : S400x4x256.Reduces [1] S400x256) (p : Fin 400) (q : Fin 256) :
    multiReduction .add [1] S400x256 v 0x00000000#32 h (.inl rfl) rfl (ix2 p q) = ∑ k : Fin 4, v (ix3 p k q) := by
  refine (Ideal.multiReduction_add_single v _ h _ _ (ix2 p q)).trans ?_
  refine Finset.sum_congr rfl fun k _ => ?_
  exact congrArg v (funext fun a => Fin.ext (by match a with | ⟨0, _⟩ => rfl | ⟨1, _⟩ => rfl | ⟨2, _⟩ => rfl))

/-- The same as a whole block: entry `j` is the sum of the four children's entries at `j`'s node and column. -/
theorem sumKids_vec (v : FVec Ideal S400x4x256 .f32) (h : S400x4x256.Reduces [1] S400x256) :
    multiReduction .add [1] S400x256 v 0x00000000#32 h (.inl rfl) rfl = fun j => ∑ k : Fin 4, v (ix3 (j 0) k (j 1)) := by
  funext j
  obtain ⟨p, q, rfl⟩ : ∃ (p : Fin 400) (q : Fin 256), j = ix2 p q := ⟨j 0, j 1, eq_ix2 j⟩
  exact sumKids_apply v h p q

/-! ## Flattening the child axis into the rows, and back -/

variable {α : Type}

/-- `[400,4,256]` cast to `[1600,256]`: row `4p + k` is child `k` of node `p`. -/
theorem flatten_apply (v : S400x4x256.Idx → α) (h : S400x4x256.ShapeCasts S1600x256) (p : Fin 400) (k : Fin 4) (q : Fin 256) :
    shapeCast S1600x256 v h (ix2 (⟨4 * p.val + k.val, by omega⟩ : Fin 1600) q) = v (ix3 p k q) :=
  shapeCast_apply v h _ _ (by
    rw [Shape.rowMajor_val_three, Shape.rowMajor_val_two]
    show (p.val * 4 + k.val) * 256 + q.val = (4 * p.val + k.val) * 256 + q.val
    omega)

/-- `[1600,256]` cast to `[400,4,256]`: child `k` of node `p` is row `4p + k`. -/
theorem unflatten_apply (w : S1600x256.Idx → α) (h : S1600x256.ShapeCasts S400x4x256) (p : Fin 400) (k : Fin 4) (q : Fin 256) :
    shapeCast S400x4x256 w h (ix3 p k q) = w (ix2 (⟨4 * p.val + k.val, by omega⟩ : Fin 1600) q) :=
  shapeCast_apply w h _ _ (by
    rw [Shape.rowMajor_val_three, Shape.rowMajor_val_two]
    show (4 * p.val + k.val) * 256 + q.val = (p.val * 4 + k.val) * 256 + q.val
    omega)

/-! ## A bias over the rows, and a block over the children -/

/-- A length-256 vector as one row, broadcast over the 400 rows: at `(p, q)` the vector's entry `q`. -/
theorem biasRows_apply (b : S256.Idx → α) (h1 : S256.ShapeCasts S1x256) (h2 : S1x256.Broadcasts S400x256) (p : Fin 400) (q : Fin 256) :
    broadcastTo S400x256 (shapeCast S1x256 b h1) h2 (ix2 p q) = b (ix1 q) := by
  rw [broadcastTo_1b_ab_apply, shapeCast_a_1a_apply]

/-- A `[400,256]` block given a unit middle axis and broadcast over the four children: at `(p, k, q)` the block's
    entry `(p, q)`, whatever the child. -/
theorem overKids_apply (v : S400x256.Idx → α) (h1 : S400x256.ShapeCasts S400x1x256) (h2 : S400x1x256.Broadcasts S400x4x256)
    (p : Fin 400) (k : Fin 4) (q : Fin 256) :
    broadcastTo S400x4x256 (shapeCast S400x1x256 v h1) h2 (ix3 p k q) = v (ix2 p q) := by
  refine (broadcastTo_apply _ h2 (ix3 p k q) (ix3 p (0 : Fin 1) q) fun ax => ?_).trans ?_
  · match ax with
    | ⟨0, _⟩ =>
      show p.val = if (400 : Nat) = 1 then 0 else p.val
      rw [if_neg (by decide)]
    | ⟨1, _⟩ =>
      show 0 = if (1 : Nat) = 1 then 0 else k.val
      rw [if_pos rfl]
    | ⟨2, _⟩ =>
      show q.val = if (256 : Nat) = 1 then 0 else q.val
      rw [if_neg (by decide)]
  · exact shapeCast_apply v h1 _ _ (by
      rw [Shape.rowMajor_val_three, Shape.rowMajor_val_two]
      show p.val * 256 + q.val = (p.val * 1 + 0) * 256 + q.val
      omega)

end Cert.KernelIdeal.Ops

end
-- ==== Proof.Cell.lean ====
/-
  The child-sum tree-LSTM cell on ONE node, as a function on the extended reals.

  A node has a feature row `xr` (256 entries) and four children, each with a hidden row and a memory row
  (`hr k`, `cr k`, 256 entries each). With `s = Σ_k hr k` the child sum, a gate's pre-activation at hidden unit `g` is
      pre W b U g = Σ_d xr d · W g d  +  b g  +  Σ_h s h · U g h,
  and the cell computes
      i = σ(pre Wi bi Ui),   o = σ(pre Wo bo Uo),   u = tanh(pre Wu bu Uu),
      f_k g = σ((Σ_d xr d · Wf g d + bf g) + Σ_h hr k h · Uf g h)      (one forget gate per child),
      c g = i g · u g + Σ_k f_k g · cr k g,        h g = o g · tanh (c g),
  where σ x = 1 / (1 + e^(-x)). The weights enter as functions `g d ↦ W g d` so that a program holding a
  matrix or its transpose reads the same cell. `cellArr` / `hiddenArr` lay the cell out over the 100000 nodes.
-/
import Idealize.ShloMosaic.PureOps.Ideal
import Idealize.ShloMosaic.PureOps.IdealRules
import Idealize.ShloMosaic.PureOps.Ideal.Laws
import Idealize.ShloMosaic.Lib.ValueIdx

noncomputable section

namespace Cert.TreeLstm

open Idealize.ShloMosaic Idealize.ShloMosaic.ValueIdx

/-- The sum of the four children's hidden rows, entry by entry. -/
def childSum (hr : Fin 4 → Fin 256 → EReal) (h : Fin 256) : EReal := ∑ k : Fin 4, hr k h

/-- A gate's pre-activation at hidden unit `g`: the feature row against row `g` of `w`, plus the bias, plus the
    row `s` against row `g` of `u`. -/
def pre (xr s : Fin 256 → EReal) (w u : Fin 256 → Fin 256 → EReal) (b : Fin 256 → EReal) (g : Fin 256) : EReal :=
  (∑ d : Fin 256, xr d * w g d) + b g + ∑ h : Fin 256, s h * u g h

/-- Child `k`'s forget gate at hidden unit `g`: the feature part is shared by the children, the recurrent part is the
    child's own hidden row. -/
def forget (xr : Fin 256 → EReal) (hr : Fin 4 → Fin 256 → EReal) (wf uf : Fin 256 → Fin 256 → EReal) (bf : Fin 256 → EReal)
    (k : Fin 4) (g : Fin 256) : EReal :=
  Ideal.logistic (((∑ d : Fin 256, xr d * wf g d) + bf g) + ∑ h : Fin 256, hr k h * uf g h)

/-- The new memory at hidden unit `g`: input gate times candidate, plus each child's memory through its forget gate. -/
def cell (xr : Fin 256 → EReal) (hr cr : Fin 4 → Fin 256 → EReal)
    (wi ui : Fin 256 → Fin 256 → EReal) (bi : Fin 256 → EReal)
    (wu uu : Fin 256 → Fin 256 → EReal) (bu : Fin 256 → EReal)
    (wf uf : Fin 256 → Fin 256 → EReal) (bf : Fin 256 → EReal) (g : Fin 256) : EReal :=
  Ideal.logistic (pre xr (childSum hr) wi ui bi g) * Ideal.tanh (pre xr (childSum hr) wu uu bu g)
    + ∑ k : Fin 4, forget xr hr wf uf bf k g * cr k g

/-- The new hidden state at hidden unit `g`: the output gate times `tanh` of the new memory. -/
def hidden (xr : Fin 256 → EReal) (hr cr : Fin 4 → Fin 256 → EReal)
    (wi ui : Fin 256 → Fin 256 → EReal) (bi : Fin 256 → EReal)
    (wu uu : Fin 256 → Fin 256 → EReal) (bu : Fin 256 → EReal)
    (wf uf : Fin 256 → Fin 256 → EReal) (bf : Fin 256 → EReal)
    (wo uo : Fin 256 → Fin 256 → EReal) (bo : Fin 256 → EReal) (g : Fin 256) : EReal :=
  Ideal.logistic (pre xr (childSum hr) wo uo bo g) * Ideal.tanh (cell xr hr cr wi ui bi wu uu bu wf uf bf g)

/-! ## The two literals, and the sigmoid spelt out -/

/-- The word of `1.0` denotes the real number 1. -/
theorem one_f32 : Ideal.ofBits .f32 0x3F800000#32 = 1 := IdealRules.sign_bit.ideal_onePat .f32

/-- `1 / (1 + e^(-y))` written with the word of `1.0` is the sigmoid, on every extended real. -/
theorem logistic_spelt (y : EReal) :
    Ideal.div (Ideal.ofBits .f32 0x3F800000#32) (Ideal.ofBits .f32 0x3F800000#32 + Ideal.exp (-y)) = Ideal.logistic y := by
  rw [one_f32]; rfl

/-! ## Over the arrays -/

abbrev Nodes : Type := (⟨2, ![100000, 256]⟩ : Shape).Idx → EReal
abbrev Children : Type := (⟨3, ![100000, 4, 256]⟩ : Shape).Idx → EReal
abbrev Weight : Type := (⟨2, ![256, 256]⟩ : Shape).Idx → EReal
abbrev Bias : Type := (⟨1, ![256]⟩ : Shape).Idx → EReal

/-- Node `n`'s feature row. -/
abbrev rowOf (x : Nodes) (n : Fin 100000) : Fin 256 → EReal := fun d => x (ix2 n d)
/-- Node `n`'s four child rows. -/
abbrev kidsOf (ch : Children) (n : Fin 100000) : Fin 4 → Fin 256 → EReal := fun k h => ch (ix3 n k h)
/-- A weight matrix `[out, in]` as the function `g d ↦ W[g, d]`. -/
abbrev wOf (W : Weight) : Fin 256 → Fin 256 → EReal := fun g d => W (ix2 g d)
/-- A bias vector as a function of the hidden unit. -/
abbrev bOf (b : Bias) : Fin 256 → EReal := fun g => b (ix1 g)

/-- The new memory of every node: entry `(n, g)` is the cell of node `n`'s rows at hidden unit `g`. -/
def cellArr (x : Nodes) (ch cc : Children) (Wi : Weight) (bi : Bias) (Wf : Weight) (bf : Bias) (Wu : Weight) (bu : Bias)
    (Ui Uf Uu : Weight) : Nodes := fun i =>
  cell (rowOf x (i 0)) (kidsOf ch (i 0)) (kidsOf cc (i 0)) (wOf Wi) (wOf Ui) (bOf bi) (wOf Wu) (wOf Uu) (bOf bu)
    (wOf Wf) (wOf Uf) (bOf bf) (i 1)

/-- The new hidden state of every node. -/
def hiddenArr (x : Nodes) (ch cc : Children) (Wi : Weight) (bi : Bias) (Wf : Weight) (bf : Bias) (Wo : Weight) (bo : Bias)
    (Wu : Weight) (bu : Bias) (Ui Uf Uo Uu : Weight) : Nodes := fun i =>
  hidden (rowOf x (i 0)) (kidsOf ch (i 0)) (kidsOf cc (i 0)) (wOf Wi) (wOf Ui) (bOf bi) (wOf Wu) (wOf Uu) (bOf bu)
    (wOf Wf) (wOf Uf) (bOf bf) (wOf Wo) (wOf Uo) (bOf bo) (i 1)

end Cert.TreeLstm

end
-- ==== Proof.KernelCell.lean ====
/-
  The kernel body on one 400-node block computes the tree-LSTM cell row by row.

  The body loads the block's feature rows `xb`, child hidden rows `chb`, child memory rows `ccb`, the eight weight
  matrices TRANSPOSED (`[in, out]`, as the host hands them over) and the four biases. Its two stored values, read at
  `(p, q)`, are the cell's new memory and new hidden state of the block's node `p` at hidden unit `q`: every
  narrowing to bf16 is the identity on the extended reals, each block product is a row-against-column sum, the child
  sum and the forget-gate sum run over the four children, and the per-child product is taken on the flattened
  `[1600, 256]` rows `4p + k`.
-/
import proofs.«145503_j63917703299457_1_alg».proof.Proof.Gen.KernelIdeal.Skeleton
import proofs.«145503_j63917703299457_1_alg».proof.Proof.KernelOps
import proofs.«145503_j63917703299457_1_alg».proof.Proof.Cell

noncomputable section

namespace Cert.KernelIdeal.Body

open Cert.KernelIdeal Cert.KernelIdeal.Gen Cert.KernelIdeal.Ops Cert.TreeLstm
open Idealize.ShloMosaic Idealize.ShloMosaic.ValueIdx

/-- Row `p` of a feature block. -/
abbrev rowB (xb : Vec Ideal S400x256 .f32) (p : Fin 400) : Fin 256 → EReal := fun d => xb (ix2 p d)
/-- The four child rows of the block's node `p`. -/
abbrev kidsB (cb : Vec Ideal S400x4x256 .f32) (p : Fin 400) : Fin 4 → Fin 256 → EReal := fun k h => cb (ix3 p k h)
/-- A transposed weight matrix `[in, out]` as the function `g d ↦ Wᵀ[d, g]`. -/
abbrev wT (WT : Vec Ideal S256x256 .f32) : Fin 256 → Fin 256 → EReal := fun g d => WT (ix2 d g)
/-- A bias block as a function of the hidden unit. -/
abbrev bB (b : Vec Ideal S256 .f32) : Fin 256 → EReal := fun g => b (ix1 g)

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The value stored to the memory output, at `(p, q)`: the cell's new memory of node `p` at unit `q`. -/
theorem memory_block (xb : Vec Ideal S400x256 .f32) (chb ccb : Vec Ideal S400x4x256 .f32)
    (WiT WfT WuT UiT UfT UuT : Vec Ideal S256x256 .f32) (bi bf bu : Vec Ideal S256 .f32) (p : Fin 400) (q : Fin 256) :
    k0_pay11 chb ccb (k0_pay1 xb) (k0_pay2 chb) (k0_pay3 WiT) (k0_pay4 WfT) (k0_pay6 WuT) (k0_pay7 UiT) (k0_pay8 UfT)
        (k0_pay10 UuT) bi bf bu (ix2 p q)
      = cell (rowB xb p) (kidsB chb p) (kidsB ccb p) (wT WiT) (wT UiT) (bB bi) (wT WuT) (wT UuT) (bB bu)
          (wT WfT) (wT UfT) (bB bf) q := by
  unfold k0_pay11 k0_pay1 k0_pay2 k0_pay3 k0_pay4 k0_pay6 k0_pay7 k0_pay8 k0_pay10
  simp only [addf_apply, mulf_apply, logistic_apply, tanh_apply, truncf_apply, matmul400_apply, biasRows_apply, shapeCast_self]
  rw [sumKids_vec chb, sumKids_apply]
  simp only [addf_apply, mulf_apply, logistic_apply, truncf_apply, matmul400_apply, biasRows_apply, overKids_apply,
    unflatten_apply, matmul1600_apply, flatten_apply]
  rfl

/-- The value stored to the hidden output, at `(p, q)`: the cell's new hidden state of node `p` at unit `q`. -/
theorem hidden_block (xb : Vec Ideal S400x256 .f32) (chb ccb : Vec Ideal S400x4x256 .f32)
    (WiT WfT WoT WuT UiT UfT UoT UuT : Vec Ideal S256x256 .f32) (bi bf bo bu : Vec Ideal S256 .f32) (p : Fin 400) (q : Fin 256) :
    k0_pay12 chb ccb (k0_pay1 xb) (k0_pay2 chb) (k0_pay3 WiT) (k0_pay4 WfT) (k0_pay5 WoT) (k0_pay6 WuT) (k0_pay7 UiT)
        (k0_pay8 UfT) (k0_pay9 UoT) (k0_pay10 UuT) bi bf bo bu (ix2 p q)
      = hidden (rowB xb p) (kidsB chb p) (kidsB ccb p) (wT WiT) (wT UiT) (bB bi) (wT WuT) (wT UuT) (bB bu)
          (wT WfT) (wT UfT) (bB bf) (wT WoT) (wT UoT) (bB bo) q := by
  unfold k0_pay12
  simp only [mulf_apply, tanh_apply, memory_block]
  unfold k0_pay1 k0_pay2 k0_pay5 k0_pay9
  simp only [addf_apply, logistic_apply, truncf_apply, matmul400_apply, biasRows_apply, shapeCast_self]
  rw [sumKids_vec chb]
  rfl

end Cert.KernelIdeal.Body

end
-- ==== Proof.KernelArrays.lean ====
/-
  From the blocks to the arrays.

  The grid has 250 points; point `t` works on nodes `400 t … 400 t + 399`: its feature, child-hidden and child-memory
  blocks are those rows of the argument arrays, and its two output blocks are those rows of the results. The weight and
  bias windows have one block, the whole array, at every point; a weight window stages the host's transpose of the
  argument, so its entry `(d, g)` is the argument's `(g, d)`. Hence what point `t` writes back is rows `400 t …` of the
  cell laid out over all nodes (`cellArr`, `hiddenArr`), the 250 blocks cover the 100000 rows (row `r` lies in block
  `r / 400`), and after the run each result array is the cell of every node.
-/
import proofs.«145503_j63917703299457_1_alg».proof.Proof.Gen.KernelIdeal.Value
import proofs.«145503_j63917703299457_1_alg».proof.Proof.KernelCell
import Idealize.ShloMosaic.Lib.StableHlo.Run
import Idealize.ShloMosaic.Lib.ValueLayout

set_option maxRecDepth 16384

noncomputable section

namespace Cert.KernelIdeal.Arrays

open Cert.KernelIdeal Cert.KernelIdeal.Gen Cert.KernelIdeal.Body Cert.TreeLstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The new memory of every node, from core `c`'s argument arrays. -/
def memArr (c : Dev nD) : Nodes :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg14))

/-- The new hidden state of every node, from core `c`'s argument arrays. -/
def hidArr (c : Dev nD) : Nodes :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem points : cfg0.N = 250 := N_0

/-! ## The index maps, decided over the 250 points -/

/-- The row windows (features, child rows, the two outputs) move with the point: block `t` on the node axis, block 0 on the others. -/
theorem idx_rows : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weight windows stay on their one block. -/
theorem idx_weights : ∀ t : Fin cfg0.N,
    (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- The bias windows stay on their one block. -/
theorem idx_biases : ∀ t : Fin cfg0.N,
    win0_4.index t (0 : Fin 1) = 0 ∧ win0_6.index t (0 : Fin 1) = 0 ∧ win0_8.index t (0 : Fin 1) = 0 ∧ win0_10.index t (0 : Fin 1) = 0 :=
  (by decide +kernel : ∀ t : Fin grid0.N, _)

/-! ## The row blocks read off the arrays -/

/-- The feature block at point `t`: row `p` is row `400 t + p` of the feature array. -/
theorem x_read (c : Dev nD) (t : Fin cfg0.N) (p : Fin 400) (n : Fin 100000) (hn : n.val = t.val * 400 + p.val) (d : Fin 256) :
    iblk m c 0 t (ix2 p d) = (m ((c : Thread nD τ).loc main_arg0)) (ix2 n d) := by
  obtain ⟨e0, e1, -⟩ := idx_rows t
  show V m c main_arg0 (((cfg0.win 0).blk t).view.emb (ix2 p d)) = _
  rw [V_main_arg0]
  refine congrArg _ (funext fun a => Fin.ext ?_)
  match a with
  | ⟨0, _⟩ => show win0_0.index t (0 : Fin 2) * 400 + 1 * p.val = n.val; omega
  | ⟨1, _⟩ => show win0_0.index t (1 : Fin 2) * 256 + 1 * d.val = d.val; omega

/-- The child-hidden block at point `t`: node `p`'s children are node `400 t + p`'s. -/
theorem ch_read (c : Dev nD) (t : Fin cfg0.N) (p : Fin 400) (n : Fin 100000) (hn : n.val = t.val * 400 + p.val) (k : Fin 4) (h : Fin 256) :
    iblk m c 1 t (ix3 p k h) = (m ((c : Thread nD τ).loc main_arg1)) (ix3 n k h) := by
  obtain ⟨-, -, e0, e1, e2, -⟩ := idx_rows t
  show V m c main_arg1 (((cfg0.win 1).blk t).view.emb (ix3 p k h)) = _
  rw [V_main_arg1]
  refine congrArg _ (funext fun a => Fin.ext ?_)
  match a with
  | ⟨0, _⟩ => show win0_1.index t (0 : Fin 3) * 400 + 1 * p.val = n.val; omega
  | ⟨1, _⟩ => show win0_1.index t (1 : Fin 3) * 4 + 1 * k.val = k.val; omega
  | ⟨2, _⟩ => show win0_1.index t (2 : Fin 3) * 256 + 1 * h.val = h.val; omega

/-- The child-memory block at point `t`, likewise. -/
theorem cc_read (c : Dev nD) (t : Fin cfg0.N) (p : Fin 400) (n : Fin 100000) (hn : n.val = t.val * 400 + p.val) (k : Fin 4) (h : Fin 256) :
    iblk m c 2 t (ix3 p k h) = (m ((c : Thread nD τ).loc main_arg2)) (ix3 n k h) := by
  obtain ⟨-, -, -, -, -, e0, e1, e2, -⟩ := idx_rows t
  show V m c main_arg2 (((cfg0.win 2).blk t).view.emb (ix3 p k h)) = _
  rw [V_main_arg2]
  refine congrArg _ (funext fun a => Fin.ext ?_)
  match a with
  | ⟨0, _⟩ => show win0_2.index t (0 : Fin 3) * 400 + 1 * p.val = n.val; omega
  | ⟨1, _⟩ => show win0_2.index t (1 : Fin 3) * 4 + 1 * k.val = k.val; omega
  | ⟨2, _⟩ => show win0_2.index t (2 : Fin 3) * 256 + 1 * h.val = h.val; omega

/-! ## The weights, transposed by the host before the call, and the biases -/

/-- The array window 3 stages is the host's transpose of `Wi`. -/
theorem staged_Wi (c : Dev nD) :
    (V m c main_v0 : S256x256.Idx → EReal) = transpose S256x256 [1, 0] (m ((c : Thread nD τ).loc main_arg3)) transposes_S256x256_S256x256_1_0 := by
  dsimp only [Gen.V, Gen.hostOps0]; after_results

/-- So window 3's block reads, at `(d, g)`, `Wi` at `(g, d)`. -/
theorem Wi_read (c : Dev nD) (t : Fin cfg0.N) (d g : Fin 256) : iblk m c 3 t (ix2 d g) = (m ((c : Thread nD τ).loc main_arg3)) (ix2 g d) := by
  obtain ⟨e0, e1⟩ := (idx_weights t).1
  have hemb : ((cfg0.win 3).blk t).view.emb (ix2 d g) = ix2 d g := funext fun a => Fin.ext (by
    match a with
    | ⟨0, _⟩ => show win0_3.index t (0 : Fin 2) * 256 + 1 * d.val = d.val; omega
    | ⟨1, _⟩ => show win0_3.index t (1 : Fin 2) * 256 + 1 * g.val = g.val; omega)
  show V m c main_v0 (((cfg0.win 3).blk t).view.emb (ix2 d g)) = _
  rw [hemb, staged_Wi]
  exact transpose_ix2_apply _ _ d g

/-- The array window 5 stages is the host's transpose of `Wf`. -/
theorem staged_Wf (c : Dev nD) :
    (V m c main_v1 : S256x256.Idx → EReal) = transpose S256x256 [1, 0] (m ((c : Thread nD τ).loc main_arg5)) transposes_S256x256_S256x256_1_0 := by
  dsimp only [Gen.V, Gen.hostOps0]; after_results

/-- So window 5's block reads, at `(d, g)`, `Wf` at `(g, d)`. -/
theorem Wf_read (c : Dev nD) (t : Fin cfg0.N) (d g : Fin 256) : iblk m c 5 t (ix2 d g) = (m ((c : Thread nD τ).loc main_arg5)) (ix2 g d) := by
  obtain ⟨e0, e1⟩ := (idx_weights t).2.1
  have hemb : ((cfg0.win 5).blk t).view.emb (ix2 d g) = ix2 d g := funext fun a => Fin.ext (by
    match a with
    | ⟨0, _⟩ => show win0_5.index t (0 : Fin 2) * 256 + 1 * d.val = d.val; omega
    | ⟨1, _⟩ => show win0_5.index t (1 : Fin 2) * 256 + 1 * g.val = g.val; omega)
  show V m c main_v1 (((cfg0.win 5).blk t).view.emb (ix2 d g)) = _
  rw [hemb, staged_Wf]
  exact transpose_ix2_apply _ _ d g

/-- The array window 7 stages is the host's transpose of `Wo`. -/
theorem staged_Wo (c : Dev nD) :
    (V m c main_v2 : S256x256.Idx → EReal) = transpose S256x256 [1, 0] (m ((c : Thread nD τ).loc main_arg7)) transposes_S256x256_S256x256_1_0 := by
  dsimp only [Gen.V, Gen.hostOps0]; after_results

/-- So window 7's block reads, at `(d, g)`, `Wo` at `(g, d)`. -/
theorem Wo_read (c : Dev nD) (t : Fin cfg0.N) (d g : Fin 256) : iblk m c 7 t (ix2 d g) = (m ((c : Thread nD τ).loc main_arg7)) (ix2 g d) := by
  obtain ⟨e0, e1⟩ := (idx_weights t).2.2.1
  have hemb : ((cfg0.win 7).blk t).view.emb (ix2 d g) = ix2 d g := funext fun a => Fin.ext (by
    match a with
    | ⟨0, _⟩ => show win0_7.index t (0 : Fin 2) * 256 + 1 * d.val = d.val; omega
    | ⟨1, _⟩ => show win0_7.index t (1 : Fin 2) * 256 + 1 * g.val = g.val; omega)
  show V m c main_v2 (((cfg0.win 7).blk t).view.emb (ix2 d g)) = _
  rw [hemb, staged_Wo]
  exact transpose_ix2_apply _ _ d g

/-- The array window 9 stages is the host's transpose of `Wu`. -/
theorem staged_Wu (c : Dev nD) :
    (V m c main_v3 : S256x256.Idx → EReal) = transpose S256x256 [1, 0] (m ((c : Thread nD τ).loc main_arg9)) transposes_S256x256_S256x256_1_0 := by
  dsimp only [Gen.V, Gen.hostOps0]; after_results

/-- So window 9's block reads, at `(d, g)`, `Wu` at `(g, d)`. -/
theorem Wu_read (c : Dev nD) (t : Fin cfg0.N) (d g : Fin 256) : iblk m c 9 t (ix2 d g) = (m ((c : Thread nD τ).loc main_arg9)) (ix2 g d) := by
  obtain ⟨e0, e1⟩ := (idx_weights t).2.2.2.1
  have hemb : ((cfg0.win 9).blk t).view.emb (ix2 d g) = ix2 d g := funext fun a => Fin.ext (by
    match a with
    | ⟨0, _⟩ => show win0_9.index t (0 : Fin 2) * 256 + 1 * d.val = d.val; omega
    | ⟨1, _⟩ => show win0_9.index t (1 : Fin 2) * 256 + 1 * g.val = g.val; omega)
  show V m c main_v3 (((cfg0.win 9).blk t).view.emb (ix2 d g)) = _
  rw [hemb, staged_Wu]
  exact transpose_ix2_apply _ _ d g

/-- The array window 11 stages is the host's transpose of `Ui`. -/
theorem staged_Ui (c : Dev nD) :
    (V m c main_v4 : S256x256.Idx → EReal) = transpose S256x256 [1, 0] (m ((c : Thread nD τ).loc main_arg11)) transposes_S256x256_S256x256_1_0 := by
  dsimp only [Gen.V, Gen.hostOps0]; after_results

/-- So window 11's block reads, at `(d, g)`, `Ui` at `(g, d)`. -/
theorem Ui_read (c : Dev nD) (t : Fin cfg0.N) (d g : Fin 256) : iblk m c 11 t (ix2 d g) = (m ((c : Thread nD τ).loc main_arg11)) (ix2 g d) := by
  obtain ⟨e0, e1⟩ := (idx_weights t).2.2.2.2.1
  have hemb : ((cfg0.win 11).blk t).view.emb (ix2 d g) = ix2 d g := funext fun a => Fin.ext (by
    match a with
    | ⟨0, _⟩ => show win0_11.index t (0 : Fin 2) * 256 + 1 * d.val = d.val; omega
    | ⟨1, _⟩ => show win0_11.index t (1 : Fin 2) * 256 + 1 * g.val = g.val; omega)
  show V m c main_v4 (((cfg0.win 11).blk t).view.emb (ix2 d g)) = _
  rw [hemb, staged_Ui]
  exact transpose_ix2_apply _ _ d g

/-- The array window 12 stages is the host's transpose of `Uf`. -/
theorem staged_Uf (c : Dev nD) :
    (V m c main_v5 : S256x256.Idx → EReal) = transpose S256x256 [1, 0] (m ((c : Thread nD τ).loc main_arg12)) transposes_S256x256_S256x256_1_0 := by
  dsimp only [Gen.V, Gen.hostOps0]; after_results

/-- So window 12's block reads, at `(d, g)`, `Uf` at `(g, d)`. -/
theorem Uf_read (c : Dev nD) (t : Fin cfg0.N) (d g : Fin 256) : iblk m c 12 t (ix2 d g) = (m ((c : Thread nD τ).loc main_arg12)) (ix2 g d) := by
  obtain ⟨e0, e1⟩ := (idx_weights t).2.2.2.2.2.1
  have hemb : ((cfg0.win 12).blk t).view.emb (ix2 d g) = ix2 d g := funext fun a => Fin.ext (by
    match a with
    | ⟨0, _⟩ => show win0_12.index t (0 : Fin 2) * 256 + 1 * d.val = d.val; omega
    | ⟨1, _⟩ => show win0_12.index t (1 : Fin 2) * 256 + 1 * g.val = g.val; omega)
  show V m c main_v5 (((cfg0.win 12).blk t).view.emb (ix2 d g)) = _
  rw [hemb, staged_Uf]
  exact transpose_ix2_apply _ _ d g

/-- The array window 13 stages is the host's transpose of `Uo`. -/
theorem staged_Uo (c : Dev nD) :
    (V m c main_v6 : S256x256.Idx → EReal) = transpose S256x256 [1, 0] (m ((c : Thread nD τ).loc main_arg13)) transposes_S256x256_S256x256_1_0 := by
  dsimp only [Gen.V, Gen.hostOps0]; after_results

/-- So window 13's block reads, at `(d, g)`, `Uo` at `(g, d)`. -/
theorem Uo_read (c : Dev nD) (t : Fin cfg0.N) (d g : Fin 256) : iblk m c 13 t (ix2 d g) = (m ((c : Thread nD τ).loc main_arg13)) (ix2 g d) := by
  obtain ⟨e0, e1⟩ := (idx_weights t).2.2.2.2.2.2.1
  have hemb : ((cfg0.win 13).blk t).view.emb (ix2 d g) = ix2 d g := funext fun a => Fin.ext (by
    match a with
    | ⟨0, _⟩ => show win0_13.index t (0 : Fin 2) * 256 + 1 * d.val = d.val; omega
    | ⟨1, _⟩ => show win0_13.index t (1 : Fin 2) * 256 + 1 * g.val = g.val; omega)
  show V m c main_v6 (((cfg0.win 13).blk t).view.emb (ix2 d g)) = _
  rw [hemb, staged_Uo]
  exact transpose_ix2_apply _ _ d g

/-- The array window 14 stages is the host's transpose of `Uu`. -/
theorem staged_Uu (c : Dev nD) :
    (V m c main_v7 : S256x256.Idx → EReal) = transpose S256x256 [1, 0] (m ((c : Thread nD τ).loc main_arg14)) transposes_S256x256_S256x256_1_0 := by
  dsimp only [Gen.V, Gen.hostOps0]; after_results

/-- So window 14's block reads, at `(d, g)`, `Uu` at `(g, d)`. -/
theorem Uu_read (c : Dev nD) (t : Fin cfg0.N) (d g : Fin 256) : iblk m c 14 t (ix2 d g) = (m ((c : Thread nD τ).loc main_arg14)) (ix2 g d) := by
  obtain ⟨e0, e1⟩ := (idx_weights t).2.2.2.2.2.2.2
  have hemb : ((cfg0.win 14).blk t).view.emb (ix2 d g) = ix2 d g := funext fun a => Fin.ext (by
    match a with
    | ⟨0, _⟩ => show win0_14.index t (0 : Fin 2) * 256 + 1 * d.val = d.val; omega
    | ⟨1, _⟩ => show win0_14.index t (1 : Fin 2) * 256 + 1 * g.val = g.val; omega)
  show V m c main_v7 (((cfg0.win 14).blk t).view.emb (ix2 d g)) = _
  rw [hemb, staged_Uu]
  exact transpose_ix2_apply _ _ d g

/-- Window 4's block is the bias `bi`. -/
theorem bi_read (c : Dev nD) (t : Fin cfg0.N) (g : Fin 256) : iblk m c 4 t (ix1 g) = (m ((c : Thread nD τ).loc main_arg4)) (ix1 g) := by
  have e0 := (idx_biases t).1
  show V m c main_arg4 (((cfg0.win 4).blk t).view.emb (ix1 g)) = _
  rw [V_main_arg4]
  refine congrArg _ (funext fun a => Fin.ext ?_)
  match a with
  | ⟨0, _⟩ => show win0_4.index t (0 : Fin 1) * 256 + 1 * g.val = g.val; omega

/-- Window 6's block is the bias `bf`. -/
theorem bf_read (c : Dev nD) (t : Fin cfg0.N) (g : Fin 256) : iblk m c 6 t (ix1 g) = (m ((c : Thread nD τ).loc main_arg6)) (ix1 g) := by
  have e0 := (idx_biases t).2.1
  show V m c main_arg6 (((cfg0.win 6).blk t).view.emb (ix1 g)) = _
  rw [V_main_arg6]
  refine congrArg _ (funext fun a => Fin.ext ?_)
  match a with
  | ⟨0, _⟩ => show win0_6.index t (0 : Fin 1) * 256 + 1 * g.val = g.val; omega

/-- Window 8's block is the bias `bo`. -/
theorem bo_read (c : Dev nD) (t : Fin cfg0.N) (g : Fin 256) : iblk m c 8 t (ix1 g) = (m ((c : Thread nD τ).loc main_arg8)) (ix1 g) := by
  have e0 := (idx_biases t).2.2.1
  show V m c main_arg8 (((cfg0.win 8).blk t).view.emb (ix1 g)) = _
  rw [V_main_arg8]
  refine congrArg _ (funext fun a => Fin.ext ?_)
  match a with
  | ⟨0, _⟩ => show win0_8.index t (0 : Fin 1) * 256 + 1 * g.val = g.val; omega

/-- Window 10's block is the bias `bu`. -/
theorem bu_read (c : Dev nD) (t : Fin cfg0.N) (g : Fin 256) : iblk m c 10 t (ix1 g) = (m ((c : Thread nD τ).loc main_arg10)) (ix1 g) := by
  have e0 := (idx_biases t).2.2.2
  show V m c main_arg10 (((cfg0.win 10).blk t).view.emb (ix1 g)) = _
  rw [V_main_arg10]
  refine congrArg _ (funext fun a => Fin.ext ?_)
  match a with
  | ⟨0, _⟩ => show win0_10.index t (0 : Fin 1) * 256 + 1 * g.val = g.val; omega

/-! ## What a point writes back -/

/-- The output block's index `(p, q)` at point `t` is the array's `(400 t + p, q)`. -/
theorem out16_emb (t : Fin cfg0.N) (p : Fin 400) (q : Fin 256) (n : Fin 100000) (hn : n.val = t.val * 400 + p.val) :
    ((cfg0.win 16).blk t).view.emb (ix2 p q) = ix2 n q := by
  obtain ⟨-, -, -, -, -, -, -, -, -, -, e0, e1⟩ := idx_rows t
  refine funext fun a => Fin.ext ?_
  match a with
  | ⟨0, _⟩ => show win0_16.index t (0 : Fin 2) * 400 + 1 * p.val = n.val; omega
  | ⟨1, _⟩ => show win0_16.index t (1 : Fin 2) * 256 + 1 * q.val = q.val; omega

theorem out15_emb (t : Fin cfg0.N) (p : Fin 400) (q : Fin 256) (n : Fin 100000) (hn : n.val = t.val * 400 + p.val) :
    ((cfg0.win 15).blk t).view.emb (ix2 p q) = ix2 n q := by
  obtain ⟨-, -, -, -, -, -, -, -, e0, e1, -⟩ := idx_rows t
  refine funext fun a => Fin.ext ?_
  match a with
  | ⟨0, _⟩ => show win0_15.index t (0 : Fin 2) * 400 + 1 * p.val = n.val; omega
  | ⟨1, _⟩ => show win0_15.index t (1 : Fin 2) * 256 + 1 * q.val = q.val; omega

/-- Point `t` writes back, to the memory result, rows `400 t …` of the cell's new memory of every node. -/
theorem memory_flushed (c : Dev nD) (t : Fin cfg0.N) :
    (dats m 0 c).flushed 16 t = ((cfg0.win 16).blk t).view.read (Elt Ideal) (memArr m c) := by
  rw [Value.flushed16]
  unfold out0_16
  rw [View.canon_unit_zero hz2]
  simp only [View.ld_unit_zero (S := S400x256) hz2, View.ld_unit_zero (S := S400x4x256) hz3,
    View.ld_unit_zero (S := S256x256) hz2, View.ld_unit_zero (S := S256) hz1]
  funext j
  obtain ⟨p, q, rfl⟩ : ∃ (p : Fin 400) (q : Fin 256), j = ix2 p q := ⟨j 0, j 1, eq_ix2 j⟩
  have ht : t.val < 250 := by have h := t.isLt; have e := points; omega
  obtain ⟨n, hn⟩ : ∃ n : Fin 100000, n.val = t.val * 400 + p.val := ⟨⟨t.val * 400 + p.val, by have := p.isLt; omega⟩, rfl⟩
  show k0_pay11 (iblk m c 1 t) (iblk m c 2 t) (k0_pay1 (iblk m c 0 t)) (k0_pay2 (iblk m c 1 t)) (k0_pay3 (iblk m c 3 t))
      (k0_pay4 (iblk m c 5 t)) (k0_pay6 (iblk m c 9 t)) (k0_pay7 (iblk m c 11 t)) (k0_pay8 (iblk m c 12 t))
      (k0_pay10 (iblk m c 14 t)) (iblk m c 4 t) (iblk m c 6 t) (iblk m c 10 t) (ix2 p q)
    = memArr m c (((cfg0.win 16).blk t).view.emb (ix2 p q))
  rw [out16_emb t p q n hn]
  refine (memory_block (iblk m c 0 t) (iblk m c 1 t) (iblk m c 2 t) (iblk m c 3 t) (iblk m c 5 t) (iblk m c 9 t)
    (iblk m c 11 t) (iblk m c 12 t) (iblk m c 14 t) (iblk m c 4 t) (iblk m c 6 t) (iblk m c 10 t) p q).trans ?_
  rw [show rowB (iblk m c 0 t) p = rowOf (m ((c : Thread nD τ).loc main_arg0)) n from funext fun d => x_read m c t p n hn d,
    show kidsB (iblk m c 1 t) p = kidsOf (m ((c : Thread nD τ).loc main_arg1)) n from funext fun k => funext fun h => ch_read m c t p n hn k h,
    show kidsB (iblk m c 2 t) p = kidsOf (m ((c : Thread nD τ).loc main_arg2)) n from funext fun k => funext fun h => cc_read m c t p n hn k h,
    show wT (iblk m c 3 t) = wOf (m ((c : Thread nD τ).loc main_arg3)) from funext fun g => funext fun d => Wi_read m c t d g,
    show wT (iblk m c 5 t) = wOf (m ((c : Thread nD τ).loc main_arg5)) from funext fun g => funext fun d => Wf_read m c t d g,
    show wT (iblk m c 9 t) = wOf (m ((c : Thread nD τ).loc main_arg9)) from funext fun g => funext fun d => Wu_read m c t d g,
    show wT (iblk m c 11 t) = wOf (m ((c : Thread nD τ).loc main_arg11)) from funext fun g => funext fun d => Ui_read m c t d g,
    show wT (iblk m c 12 t) = wOf (m ((c : Thread nD τ).loc main_arg12)) from funext fun g => funext fun d => Uf_read m c t d g,
    show wT (iblk m c 14 t) = wOf (m ((c : Thread nD τ).loc main_arg14)) from funext fun g => funext fun d => Uu_read m c t d g,
    show bB (iblk m c 4 t) = bOf (m ((c : Thread nD τ).loc main_arg4)) from funext fun g => bi_read m c t g,
    show bB (iblk m c 6 t) = bOf (m ((c : Thread nD τ).loc main_arg6)) from funext fun g => bf_read m c t g,
    show bB (iblk m c 10 t) = bOf (m ((c : Thread nD τ).loc main_arg10)) from funext fun g => bu_read m c t g]
  rfl

/-- Point `t` writes back, to the hidden result, rows `400 t …` of the cell's new hidden state of every node. -/
theorem hidden_flushed (c : Dev nD) (t : Fin cfg0.N) :
    (dats m 0 c).flushed 15 t = ((cfg0.win 15).blk t).view.read (Elt Ideal) (hidArr m c) := by
  rw [Value.flushed15]
  unfold out0_15
  rw [View.canon_unit_zero hz2]
  simp only [View.ld_unit_zero (S := S400x256) hz2, View.ld_unit_zero (S := S400x4x256) hz3,
    View.ld_unit_zero (S := S256x256) hz2, View.ld_unit_zero (S := S256) hz1]
  funext j
  obtain ⟨p, q, rfl⟩ : ∃ (p : Fin 400) (q : Fin 256), j = ix2 p q := ⟨j 0, j 1, eq_ix2 j⟩
  have ht : t.val < 250 := by have h := t.isLt; have e := points; omega
  obtain ⟨n, hn⟩ : ∃ n : Fin 100000, n.val = t.val * 400 + p.val := ⟨⟨t.val * 400 + p.val, by have := p.isLt; omega⟩, rfl⟩
  show k0_pay12 (iblk m c 1 t) (iblk m c 2 t) (k0_pay1 (iblk m c 0 t)) (k0_pay2 (iblk m c 1 t)) (k0_pay3 (iblk m c 3 t))
      (k0_pay4 (iblk m c 5 t)) (k0_pay5 (iblk m c 7 t)) (k0_pay6 (iblk m c 9 t)) (k0_pay7 (iblk m c 11 t))
      (k0_pay8 (iblk m c 12 t)) (k0_pay9 (iblk m c 13 t)) (k0_pay10 (iblk m c 14 t)) (iblk m c 4 t) (iblk m c 6 t)
      (iblk m c 8 t) (iblk m c 10 t) (ix2 p q)
    = hidArr m c (((cfg0.win 15).blk t).view.emb (ix2 p q))
  rw [out15_emb t p q n hn]
  refine (hidden_block (iblk m c 0 t) (iblk m c 1 t) (iblk m c 2 t) (iblk m c 3 t) (iblk m c 5 t) (iblk m c 7 t)
    (iblk m c 9 t) (iblk m c 11 t) (iblk m c 12 t) (iblk m c 13 t) (iblk m c 14 t) (iblk m c 4 t) (iblk m c 6 t)
    (iblk m c 8 t) (iblk m c 10 t) p q).trans ?_
  rw [show rowB (iblk m c 0 t) p = rowOf (m ((c : Thread nD τ).loc main_arg0)) n from funext fun d => x_read m c t p n hn d,
    show kidsB (iblk m c 1 t) p = kidsOf (m ((c : Thread nD τ).loc main_arg1)) n from funext fun k => funext fun h => ch_read m c t p n hn k h,
    show kidsB (iblk m c 2 t) p = kidsOf (m ((c : Thread nD τ).loc main_arg2)) n from funext fun k => funext fun h => cc_read m c t p n hn k h,
    show wT (iblk m c 3 t) = wOf (m ((c : Thread nD τ).loc main_arg3)) from funext fun g => funext fun d => Wi_read m c t d g,
    show wT (iblk m c 5 t) = wOf (m ((c : Thread nD τ).loc main_arg5)) from funext fun g => funext fun d => Wf_read m c t d g,
    show wT (iblk m c 7 t) = wOf (m ((c : Thread nD τ).loc main_arg7)) from funext fun g => funext fun d => Wo_read m c t d g,
    show wT (iblk m c 9 t) = wOf (m ((c : Thread nD τ).loc main_arg9)) from funext fun g => funext fun d => Wu_read m c t d g,
    show wT (iblk m c 11 t) = wOf (m ((c : Thread nD τ).loc main_arg11)) from funext fun g => funext fun d => Ui_read m c t d g,
    show wT (iblk m c 12 t) = wOf (m ((c : Thread nD τ).loc main_arg12)) from funext fun g => funext fun d => Uf_read m c t d g,
    show wT (iblk m c 13 t) = wOf (m ((c : Thread nD τ).loc main_arg13)) from funext fun g => funext fun d => Uo_read m c t d g,
    show wT (iblk m c 14 t) = wOf (m ((c : Thread nD τ).loc main_arg14)) from funext fun g => funext fun d => Uu_read m c t d g,
    show bB (iblk m c 4 t) = bOf (m ((c : Thread nD τ).loc main_arg4)) from funext fun g => bi_read m c t g,
    show bB (iblk m c 6 t) = bOf (m ((c : Thread nD τ).loc main_arg6)) from funext fun g => bf_read m c t g,
    show bB (iblk m c 8 t) = bOf (m ((c : Thread nD τ).loc main_arg8)) from funext fun g => bo_read m c t g,
    show bB (iblk m c 10 t) = bOf (m ((c : Thread nD τ).loc main_arg10)) from funext fun g => bu_read m c t g]
  rfl

/-! ## The blocks cover the arrays -/

/-- An index of a result array is in point `t`'s block iff each coordinate is in the block's range on its axis. -/
theorem mem_blk16 (t : Fin cfg0.N) (i : S100000x256.Idx) :
    i ∈ ((cfg0.win 16).blk t).view.set ↔ ∀ a : Fin 2, win0_16.index t a * S400x256.size a ≤ (i a).val ∧ (i a).val < win0_16.index t a * S400x256.size a + S400x256.size a := by
  show i ∈ ((View.whole main_v8_1).slice (win0_16.rect t)).set ↔ _
  rw [View.set_slice_whole, Rect.mem_set_unit]
  exact Iff.rfl

theorem mem_blk15 (t : Fin cfg0.N) (i : S100000x256.Idx) :
    i ∈ ((cfg0.win 15).blk t).view.set ↔ ∀ a : Fin 2, win0_15.index t a * S400x256.size a ≤ (i a).val ∧ (i a).val < win0_15.index t a * S400x256.size a + S400x256.size a := by
  show i ∈ ((View.whole main_v8_0).slice (win0_15.rect t)).set ↔ _
  rw [View.set_slice_whole, Rect.mem_set_unit]
  exact Iff.rfl

/-- Row `r` of the memory result lies in the block of point `r / 400`. -/
theorem memory_cover (i : S100000x256.Idx) : ∃ t : Fin cfg0.N, (cfg0.win 16).flush t = true ∧ i ∈ ((cfg0.win 16).blk t).view.set := by
  have hi0 : (i 0).val < 100000 := (i 0).isLt
  have hi1 : (i 1).val < 256 := (i 1).isLt
  have hN := points
  obtain ⟨t, ht⟩ : ∃ t : Fin cfg0.N, t.val = (i 0).val / 400 := ⟨⟨(i 0).val / 400, by omega⟩, rfl⟩
  obtain ⟨-, -, -, -, -, -, -, -, -, -, e0, e1⟩ := idx_rows t
  refine ⟨t, flush0_16 t, ?_⟩
  rw [mem_blk16]
  intro a
  match a with
  | ⟨0, _⟩ => show win0_16.index t (0 : Fin 2) * 400 ≤ (i 0).val ∧ (i 0).val < win0_16.index t (0 : Fin 2) * 400 + 400; omega
  | ⟨1, _⟩ => show win0_16.index t (1 : Fin 2) * 256 ≤ (i 1).val ∧ (i 1).val < win0_16.index t (1 : Fin 2) * 256 + 256; omega

/-- Row `r` of the hidden result lies in the block of point `r / 400`. -/
theorem hidden_cover (i : S100000x256.Idx) : ∃ t : Fin cfg0.N, (cfg0.win 15).flush t = true ∧ i ∈ ((cfg0.win 15).blk t).view.set := by
  have hi0 : (i 0).val < 100000 := (i 0).isLt
  have hi1 : (i 1).val < 256 := (i 1).isLt
  have hN := points
  obtain ⟨t, ht⟩ : ∃ t : Fin cfg0.N, t.val = (i 0).val / 400 := ⟨⟨(i 0).val / 400, by omega⟩, rfl⟩
  obtain ⟨-, -, -, -, -, -, -, -, e0, e1, -⟩ := idx_rows t
  refine ⟨t, flush0_15 t, ?_⟩
  rw [mem_blk15]
  intro a
  match a with
  | ⟨0, _⟩ => show win0_15.index t (0 : Fin 2) * 400 ≤ (i 0).val ∧ (i 0).val < win0_15.index t (0 : Fin 2) * 400 + 400; omega
  | ⟨1, _⟩ => show win0_15.index t (1 : Fin 2) * 256 ≤ (i 1).val ∧ (i 1).val < win0_15.index t (1 : Fin 2) * 256 + 256; omega

/-! ## The result arrays after the run -/

/-- After the run the memory result is the cell's new memory of every node. -/
theorem memory_final (c : Dev nD) : (dats m 0 c).arrAt 16 cfg0.N = memArr m c :=
  (dats m 0 c).arrAt_eq_of_cover 16 (memArr m c) (fun t _ => memory_flushed m c t) memory_cover

/-- After the run the hidden result is the cell's new hidden state of every node. -/
theorem hidden_final (c : Dev nD) : (dats m 0 c).arrAt 15 cfg0.N = hidArr m c :=
  (dats m 0 c).arrAt_eq_of_cover 15 (hidArr m c) (fun t _ => hidden_flushed m c t) hidden_cover

end Cert.KernelIdeal.Arrays

end
-- ==== Proof.ReferenceCell.lean ====
/-
  The reference program computes the tree-LSTM cell of every node.

  Read one operation at a time, the reference's two results at `(n, g)` are the cell's new hidden state and new
  memory of node `n` at hidden unit `g`: each `x @ W.T` is the feature row against row `g` of `W` (the transpose read
  back), each `h_sum @ U.T` the child sum against row `g` of `U`, the einsum over `(n, k, h), (g, h)` child `k`'s
  hidden row against row `g` of `Uf`, a bias broadcast reads its entry `g`, both sums over the child axis start from
  zero, and the sigmoid the host spells as `1 / (1 + e^(-y))` with the word of `1.0` is the sigmoid.
-/
import proofs.«145503_j63917703299457_1_alg».proof.Proof.Gen.ReferenceIdeal.Read
import proofs.«145503_j63917703299457_1_alg».proof.Proof.Cell

noncomputable section

namespace Cert.ReferenceIdeal.CellValue

open Cert.ReferenceIdeal Cert.ReferenceIdeal.Read Cert.TreeLstm
open Idealize.ShloMosaic Idealize.ShloMosaic.ValueIdx

/-! ## Where each operation reads its operands, in coordinates -/

theorem lfeat2 (i : S100000x256.Idx) (k : Fin 256) : lidx_main_v2 i k = ix2 (i 0) k := funext fun a => Fin.ext (by match a with | ⟨0, _⟩ => rfl | ⟨1, _⟩ => rfl)
theorem rfeat2 (i : S100000x256.Idx) (k : Fin 256) : idx_main_v1 (ridx_main_v2 i k) = ix2 (i 1) k := funext fun a => Fin.ext (by match a with | ⟨0, _⟩ => rfl | ⟨1, _⟩ => rfl)
theorem lfeat16 (i : S100000x256.Idx) (k : Fin 256) : lidx_main_v16 i k = ix2 (i 0) k := funext fun a => Fin.ext (by match a with | ⟨0, _⟩ => rfl | ⟨1, _⟩ => rfl)
theorem rfeat16 (i : S100000x256.Idx) (k : Fin 256) : idx_main_v15 (ridx_main_v16 i k) = ix2 (i 1) k := funext fun a => Fin.ext (by match a with | ⟨0, _⟩ => rfl | ⟨1, _⟩ => rfl)
theorem lfeat30 (i : S100000x256.Idx) (k : Fin 256) : lidx_main_v30 i k = ix2 (i 0) k := funext fun a => Fin.ext (by match a with | ⟨0, _⟩ => rfl | ⟨1, _⟩ => rfl)
theorem rfeat30 (i : S100000x256.Idx) (k : Fin 256) : idx_main_v29 (ridx_main_v30 i k) = ix2 (i 1) k := funext fun a => Fin.ext (by match a with | ⟨0, _⟩ => rfl | ⟨1, _⟩ => rfl)
theorem lrec7 (i : S100000x256.Idx) (h : Fin 256) (k : Fin 4) : idx_main_v0 (lidx_main_v7 i h) k = ix3 (i 0) k h := funext fun a => Fin.ext (by match a with | ⟨0, _⟩ => rfl | ⟨1, _⟩ => rfl | ⟨2, _⟩ => rfl)
theorem rrec7 (i : S100000x256.Idx) (h : Fin 256) : idx_main_v6 (ridx_main_v7 i h) = ix2 (i 1) h := funext fun a => Fin.ext (by match a with | ⟨0, _⟩ => rfl | ⟨1, _⟩ => rfl)
theorem lrec21 (i : S100000x256.Idx) (h : Fin 256) (k : Fin 4) : idx_main_v0 (lidx_main_v21 i h) k = ix3 (i 0) k h := funext fun a => Fin.ext (by match a with | ⟨0, _⟩ => rfl | ⟨1, _⟩ => rfl | ⟨2, _⟩ => rfl)
theorem rrec21 (i : S100000x256.Idx) (h : Fin 256) : idx_main_v20 (ridx_main_v21 i h) = ix2 (i 1) h := funext fun a => Fin.ext (by match a with | ⟨0, _⟩ => rfl | ⟨1, _⟩ => rfl)
theorem lrec35 (i : S100000x256.Idx) (h : Fin 256) (k : Fin 4) : idx_main_v0 (lidx_main_v35 i h) k = ix3 (i 0) k h := funext fun a => Fin.ext (by match a with | ⟨0, _⟩ => rfl | ⟨1, _⟩ => rfl | ⟨2, _⟩ => rfl)
theorem rrec35 (i : S100000x256.Idx) (h : Fin 256) : idx_main_v34 (ridx_main_v35 i h) = ix2 (i 1) h := funext fun a => Fin.ext (by match a with | ⟨0, _⟩ => rfl | ⟨1, _⟩ => rfl)
theorem bias4 (i : S100000x256.Idx) : idx_main_v3 (idx_main_v4 i) = ix1 (i 1) := funext fun a => Fin.ext (by match a with | ⟨0, _⟩ => rfl)
theorem bias18 (i : S100000x256.Idx) : idx_main_v17 (idx_main_v18 i) = ix1 (i 1) := funext fun a => Fin.ext (by match a with | ⟨0, _⟩ => rfl)
theorem bias32 (i : S100000x256.Idx) : idx_main_v31 (idx_main_v32 i) = ix1 (i 1) := funext fun a => Fin.ext (by match a with | ⟨0, _⟩ => rfl)
theorem kid55 (i : S100000x256.Idx) (k : Fin 4) : idx_main_v55 i k = ix3 (i 0) k (i 1) := funext fun a => Fin.ext (by match a with | ⟨0, _⟩ => rfl | ⟨1, _⟩ => rfl | ⟨2, _⟩ => rfl)
theorem lfeatKid (i : S100000x256.Idx) (k : Fin 4) (d : Fin 256) : lidx_main_v39 (idx_main_v43 (idx_main_v45 (idx_main_v55 i k))) d = ix2 (i 0) d := funext fun a => Fin.ext (by match a with | ⟨0, _⟩ => rfl | ⟨1, _⟩ => rfl)
theorem rfeatKid (i : S100000x256.Idx) (k : Fin 4) (d : Fin 256) : idx_main_v38 (ridx_main_v39 (idx_main_v43 (idx_main_v45 (idx_main_v55 i k))) d) = ix2 (i 1) d := funext fun a => Fin.ext (by match a with | ⟨0, _⟩ => rfl | ⟨1, _⟩ => rfl)
theorem biasKid (i : S100000x256.Idx) (k : Fin 4) : idx_main_v40 (idx_main_v41 (idx_main_v43 (idx_main_v45 (idx_main_v55 i k)))) = ix1 (i 1) := funext fun a => Fin.ext (by match a with | ⟨0, _⟩ => rfl)
theorem lkid44 (i : S100000x256.Idx) (k : Fin 4) (h : Fin 256) : lidx_main_v44 (idx_main_v55 i k) h = ix3 (i 0) k h := funext fun a => Fin.ext (by match a with | ⟨0, _⟩ => rfl | ⟨1, _⟩ => rfl | ⟨2, _⟩ => rfl)
theorem rkid44 (i : S100000x256.Idx) (k : Fin 4) (h : Fin 256) : ridx_main_v44 (idx_main_v55 i k) h = ix2 (i 1) h := funext fun a => Fin.ext (by match a with | ⟨0, _⟩ => rfl | ⟨1, _⟩ => rfl)

/-! ## The two results -/

/-- The reference's memory result is the cell's new memory of every node. -/
theorem memory_eq (x0 : (⟨S100000x256, .f32⟩ : BufTy).Contents (Elt Ideal)) (x1 x2 : (⟨S100000x4x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x9 : (⟨S256x256, .f32⟩ : BufTy).Contents (Elt Ideal)) (x10 : (⟨S256, .f32⟩ : BufTy).Contents (Elt Ideal)) (x11 x12 x14 : (⟨S256x256, .f32⟩ : BufTy).Contents (Elt Ideal)) :
    val_main_v56 (F := Ideal) x0 x1 x2 x3 x4 x5 x6 x9 x10 x11 x12 x14 = cellArr x0 x1 x2 x3 x4 x5 x6 x9 x10 x11 x12 x14 := by
  funext i
  simp only [val_main_v56_apply, val_main_v53_apply, val_main_v14_apply, val_main_v13_apply, val_main_v12_apply, val_main_v11_apply, val_main_v10_apply, val_main_v9_apply, val_main_v8_apply, val_main_v5_apply, val_main_v2_apply, val_main_v1_apply, val_main_v4_apply, val_main_v3_apply, val_main_v7_apply, val_main_v0_apply, val_main_v6_apply, val_main_v37_apply, val_main_v36_apply, val_main_v33_apply, val_main_v30_apply, val_main_v29_apply, val_main_v32_apply, val_main_v31_apply, val_main_v35_apply, val_main_v34_apply, val_main_v55_apply, val_main_v54_apply, val_main_v52_apply, val_main_v51_apply, val_main_v50_apply, val_main_v49_apply, val_main_v48_apply, val_main_v47_apply, val_main_v46_apply, val_main_v45_apply, val_main_v43_apply, val_main_v42_apply, val_main_v39_apply, val_main_v38_apply, val_main_v41_apply, val_main_v40_apply, val_main_v44_apply, val_main_cst_apply, val_main_cst_0_apply, val_main_cst_1_apply, val_main_cst_4_apply, val_main_cst_5_apply, val_main_cst_6_apply]
  simp only [Ideal.ofBits_def, Ideal.addf_def, Ideal.mulf_def, Ideal.hostDivf_def, Ideal.hostUnary_exp_def, Ideal.hostUnary_tanh_def, Ideal.hostNegf_def, Ideal.negf_def, Ideal.ofBits_zero_f32, zero_add, logistic_spelt]
  simp only [lfeatKid, rfeatKid, biasKid, lkid44, rkid44, lfeat2, rfeat2, lfeat30, rfeat30, lrec7, rrec7, lrec35, rrec35, bias4, bias32]
  simp only [kid55]
  rfl

/-- The reference's hidden result is the cell's new hidden state of every node. -/
theorem hidden_eq (x0 : (⟨S100000x256, .f32⟩ : BufTy).Contents (Elt Ideal)) (x1 x2 : (⟨S100000x4x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 x12 x13 x14 : (⟨S256x256, .f32⟩ : BufTy).Contents (Elt Ideal)) :
    val_main_v58 (F := Ideal) x0 x1 x2 x3 x4 x5 x6 x7 x8 x9 x10 x11 x12 x13 x14
      = hiddenArr x0 x1 x2 x3 x4 x5 x6 x7 x8 x9 x10 x11 x12 x13 x14 := by
  funext i
  simp only [val_main_v58_apply, val_main_v28_apply, val_main_v27_apply, val_main_v26_apply, val_main_v25_apply, val_main_v24_apply, val_main_v23_apply, val_main_v22_apply, val_main_v19_apply, val_main_v16_apply, val_main_v15_apply, val_main_v18_apply, val_main_v17_apply, val_main_v21_apply, val_main_v20_apply, val_main_v0_apply, val_main_v57_apply, val_main_cst_apply, val_main_cst_2_apply, val_main_cst_3_apply, memory_eq]
  simp only [Ideal.ofBits_def, Ideal.addf_def, Ideal.mulf_def, Ideal.hostDivf_def, Ideal.hostUnary_exp_def, Ideal.hostUnary_tanh_def, Ideal.hostNegf_def, Ideal.negf_def, Ideal.ofBits_zero_f32, zero_add, logistic_spelt]
  simp only [lfeat16, rfeat16, lrec21, rrec21, bias18]
  rfl

end Cert.ReferenceIdeal.CellValue

end
-- ==== Proof.lean ====
/-
  A child-sum tree-LSTM cell over 100000 nodes with four children each: a kernel that works on 400 nodes per grid
  point against the plain array program.

  Both programs compute, for node `n` and hidden unit `g`, with `s = Σ_k child_h[n, k, :]`,
      i = σ(x[n] · Wi[g] + bi[g] + s · Ui[g]),  o = σ(x[n] · Wo[g] + bo[g] + s · Uo[g]),  u = tanh(x[n] · Wu[g] + bu[g] + s · Uu[g]),
      f_k = σ((x[n] · Wf[g] + bf[g]) + child_h[n, k] · Uf[g]),
      c = i · u + Σ_k f_k · child_c[n, k, g],      h = o · tanh c
  (`Proof/Cell.lean`). The kernel receives the weights transposed by the host and reads them back transposed, narrows its
  matmul operands to bf16 (the identity on the extended reals), takes the per-child product on the rows flattened to
  `4n + k`, and uses one sigmoid operation where the array program spells `1 / (1 + e^(-y))`: at the extended reals these
  are the same function, term by term and in the same order of additions, so no finiteness of the inputs is used.
  `Proof/KernelCell.lean` reads the kernel's two stored values on a block, `Proof/KernelArrays.lean` carries them from the
  250 blocks to the arrays, `Proof/ReferenceCell.lean` reads the array program's two results.
-/
import proofs.«145503_j63917703299457_1_alg».proof.Defs
import proofs.«145503_j63917703299457_1_alg».proof.Proof.Gen.Kernel
import proofs.«145503_j63917703299457_1_alg».proof.Proof.Gen.Kernel.Skeleton
import proofs.«145503_j63917703299457_1_alg».proof.Proof.Gen.Kernel.Launch
import proofs.«145503_j63917703299457_1_alg».proof.Proof.Gen.Kernel.Points
import proofs.«145503_j63917703299457_1_alg».proof.Proof.Gen.Kernel.Frame
import proofs.«145503_j63917703299457_1_alg».proof.Proof.Gen.KernelIdeal
import proofs.«145503_j63917703299457_1_alg».proof.Proof.Gen.KernelIdeal.Skeleton
import proofs.«145503_j63917703299457_1_alg».proof.Proof.Gen.KernelIdeal.Launch
import proofs.«145503_j63917703299457_1_alg».proof.Proof.Gen.KernelIdeal.Points
import proofs.«145503_j63917703299457_1_alg».proof.Proof.Gen.KernelIdeal.Frame
import proofs.«145503_j63917703299457_1_alg».proof.Proof.Gen.ReferenceIdeal
import proofs.«145503_j63917703299457_1_alg».proof.Proof.Gen.Pre_finite_inputs
import proofs.«145503_j63917703299457_1_alg».proof.Proof.Gen.KernelIdeal.Value
import proofs.«145503_j63917703299457_1_alg».proof.Proof.Gen.ReferenceIdeal.Run
import proofs.«145503_j63917703299457_1_alg».proof.Proof.Gen.ReferenceIdeal.Read
import proofs.«145503_j63917703299457_1_alg».proof.Proof.KernelArrays
import proofs.«145503_j63917703299457_1_alg».proof.Proof.ReferenceCell
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The array program runs to the end and leaves its arguments as they were: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- Run from memories that agree on the arguments, both programs end with the new hidden state and the new memory of
    every node in their two results. -/
theorem algebraic : Cert.algebraic_KernelIdeal_ReferenceIdeal := by
  intro m ρ m' ρ' _ hagree
  refine ⟨fun c => Cert.KernelIdeal.Arrays.hidArr m c, fun c => Cert.KernelIdeal.Arrays.memArr m c, ?_, ?_⟩
  · exact (θ_run Cert.KernelIdeal.defs _ _).mono
      (fun r h c => ⟨(h c).1.trans (Cert.KernelIdeal.Arrays.hidden_final m c),
        (h c).2.1.trans (Cert.KernelIdeal.Arrays.memory_final m c), (h c).2.2⟩)
      (Cert.KernelIdeal.Value.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.Read.val_main_v58_eq, Cert.ReferenceIdeal.CellValue.hidden_eq, h0, h1, h2, h3, h4, h5, h6, h7, h8, h9, h10, h11, h12, h13, h14]
      rfl
    · obtain ⟨h0, h1, h2, h3, h4, h5, h6, h7, h8, h9, h10, h11, h12, h13, h14⟩ := hagree c
      rw [Cert.ReferenceIdeal.Read.val_main_v56_eq, Cert.ReferenceIdeal.CellValue.memory_eq, h0, h1, h2, h3, h4, h5, h6, h9, h10, h11, h12, h14]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
